-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x4096 : Shape := ⟨3, ![1, 128, 4096]⟩
abbrev S11008x4096 : Shape := ⟨2, ![11008, 4096]⟩
abbrev S11008 : Shape := ⟨1, ![11008]⟩
abbrev S_ : Shape := ⟨0, ![]⟩

class Facts : Prop where
  bcast_S_S1x128x4096 : S_.BroadcastsInDim S1x128x4096 (![] : Fin 0 → Fin S1x128x4096.rank)
  reducesTo_S1x128x4096_S_d0_1_2 : S1x128x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S1x128x4096 .f32) (main_arg1 : FVec F S11008x4096 .f32) (main_arg2 : FVec F S11008 .f32) : IVec S_ 1 :=
  let main_v0 : FVec F S1x128x4096 .f32 := Host.absf main_arg0
  let main_cst : FVec F S_ .f32 := constant S_ .f32 0x7F800000#32
  let main_v1 : FVec F S1x128x4096 .f32 := broadcastInDim S1x128x4096 ![] bcast_S_S1x128x4096 main_cst
  let main_v2 : IVec S1x128x4096 1 := cmpf .olt main_v0 main_v1
  let main_c : IVec S_ 1 := constantI S_ 1 1#1
  let main_v3 : IVec S_ 1 := (fun x v => Host.reduce IntOp.andi x v reducesTo_S1x128x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S1x128x4096 : Shape := ⟨3, ![1, 128, 4096]⟩
abbrev S11008x4096 : Shape := ⟨2, ![11008, 4096]⟩
abbrev S11008 : Shape := ⟨1, ![11008]⟩
abbrev S1x128x11008 : Shape := ⟨3, ![1, 128, 11008]⟩
abbrev S256x4096 : Shape := ⟨2, ![256, 4096]⟩
abbrev S256 : Shape := ⟨1, ![256]⟩
abbrev S1x128x256 : Shape := ⟨3, ![1, 128, 256]⟩
abbrev S256x64x64 : Shape := ⟨3, ![256, 64, 64]⟩
abbrev S256x64 : Shape := ⟨2, ![256, 64]⟩
abbrev S256x64x1 : Shape := ⟨3, ![256, 64, 1]⟩
abbrev S256x1 : Shape := ⟨2, ![256, 1]⟩
abbrev S256x1x1 : Shape := ⟨3, ![256, 1, 1]⟩
abbrev S128x4096 : Shape := ⟨2, ![128, 4096]⟩
abbrev S128x256 : Shape := ⟨2, ![128, 256]⟩
abbrev S1x256 : Shape := ⟨2, ![1, 256]⟩

abbrev nBuf : Space → Nat
  | .hbm => 4
  | .vmem => 7
  | .smem => 0
  | _ => 0

abbrev bufTy : (tb : Table) → Fin (tcTables nBuf tb) → BufTy
  | .hbm, ⟨0, _⟩ => ⟨S1x128x4096, .f32⟩
  | .hbm, ⟨1, _⟩ => ⟨S11008x4096, .f32⟩
  | .hbm, ⟨2, _⟩ => ⟨S11008, .f32⟩
  | .hbm, ⟨3, _⟩ => ⟨S1x128x11008, .f32⟩
  | .local _ .vmem, ⟨0, _⟩ => ⟨S1x128x4096, .f32⟩
  | .local _ .vmem, ⟨1, _⟩ => ⟨S256x4096, .f32⟩
  | .local _ .vmem, ⟨2, _⟩ => ⟨S256x4096, .f32⟩
  | .local _ .vmem, ⟨3, _⟩ => ⟨S256, .f32⟩
  | .local _ .vmem, ⟨4, _⟩ => ⟨S256, .f32⟩
  | .local _ .vmem, ⟨5, _⟩ => ⟨S1x128x256, .f32⟩
  | .local _ .vmem, ⟨6, _⟩ => ⟨S1x128x256, .f32⟩
  | _, _ => ⟨S1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1x128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  shapeCasts_S256x4096_S256x64x64 : S256x4096.ShapeCasts S256x64x64
  reduces_S256x64x64_S256x64 : S256x64x64.Reduces [2] S256x64
  shapeCasts_S256x64_S256x64x1 : S256x64.ShapeCasts S256x64x1
  reduces_S256x64x1_S256x1 : S256x64x1.Reduces [1] S256x1
  shapeCasts_S256x1_S256x1x1 : S256x1.ShapeCasts S256x1x1
  broadcasts_S256x1x1_S256x64x1 : S256x1x1.Broadcasts S256x64x1
  broadcasts_S256x64x1_S256x64x64 : S256x64x1.Broadcasts S256x64x64
  shapeCasts_S256x64x64_S256x4096 : S256x64x64.ShapeCasts S256x4096
  bitsLt_bf16_f32 : FTy.bits .bf16 < FTy.bits .f32
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  dot_S128x4096_S256x4096_S128x256_1_1_0_0_n_n_wf : DotDims.WF S128x4096 S256x4096 S128x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S1x128x4096.size a
  hwx0_0 : ∀ i : grid0.Coords, EltTy.bits .f32 = 32 ∨ (Rect.block (s := S1x128x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S11008.size a
  hwx0_2 : ∀ i : grid0.Coords, EltTy.bits .f32 = 32 ∨ (Rect.block (s := S11008) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S1x128x11008.size a
  hwx0_3 : ∀ i : grid0.Coords, EltTy.bits .f32 = 32 ∨ (Rect.block (s := S1x128x11008) S1x128x256.size (cc0_transform_3 i) (hinb0_3 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf

abbrev win0_0 : Pipeline.Window sig grid0 :=
  Pipeline.Window.ofSpec (Memref.whole main_arg0) S1x128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x128x4096 : Shape := ⟨3, ![1, 128, 4096]⟩
abbrev S11008x4096 : Shape := ⟨2, ![11008, 4096]⟩
abbrev S11008 : Shape := ⟨1, ![11008]⟩
abbrev S11008x64x64 : Shape := ⟨3, ![11008, 64, 64]⟩
abbrev S_ : Shape := ⟨0, ![]⟩
abbrev S11008x64 : Shape := ⟨2, ![11008, 64]⟩
abbrev S11008x64x1 : Shape := ⟨3, ![11008, 64, 1]⟩
abbrev S11008x1 : Shape := ⟨2, ![11008, 1]⟩
abbrev S11008x1x1 : Shape := ⟨3, ![11008, 1, 1]⟩
abbrev S1x128x11008 : Shape := ⟨3, ![1, 128, 11008]⟩
abbrev S1x1x11008 : Shape := ⟨3, ![1, 1, 11008]⟩

abbrev nBuf : Space → Nat
  | .hbm => 56
  | .vmem => 0
  | .smem => 0
  | _ => 0

abbrev bufTy : (tb : Table) → Fin (tcTables nBuf tb) → BufTy
  | .hbm, ⟨0, _⟩ => ⟨S1x128x4096, .f32⟩
  | .hbm, ⟨1, _⟩ => ⟨S11008x4096, .f32⟩
  | .hbm, ⟨2, _⟩ => ⟨S11008, .f32⟩
  | .hbm, ⟨3, _⟩ => ⟨S11008x64x64, .f32⟩
  | .hbm, ⟨4, _⟩ => ⟨S11008x64x64, .f32⟩
  | .hbm, ⟨5, _⟩ => ⟨S_, .f32⟩
  | .hbm, ⟨6, _⟩ => ⟨S11008x64, .f32⟩
  | .hbm, ⟨7, _⟩ => ⟨S11008x64x1, .f32⟩
  | .hbm, ⟨8, _⟩ => ⟨S_, .f32⟩
  | .hbm, ⟨9, _⟩ => ⟨S11008x64x1, .f32⟩
  | .hbm, ⟨10, _⟩ => ⟨S11008x64x1, .f32⟩
  | .hbm, ⟨11, _⟩ => ⟨S_, .f32⟩
  | .hbm, ⟨12, _⟩ => ⟨S_, .f32⟩
  | .hbm, ⟨13, _⟩ => ⟨S11008x64x1, .f32⟩
  | .hbm, ⟨14, _⟩ => ⟨S11008x64x1, .f32⟩
  | .hbm, ⟨15, _⟩ => ⟨S_, .f32⟩
  | .hbm, ⟨16, _⟩ => ⟨S11008x1, .f32⟩
  | .hbm, ⟨17, _⟩ => ⟨S11008x1x1, .f32⟩
  | .hbm, ⟨18, _⟩ => ⟨S_, .f32⟩
  | .hbm, ⟨19, _⟩ => ⟨S11008x1x1, .f32⟩
  | .hbm, ⟨20, _⟩ => ⟨S11008x1x1, .f32⟩
  | .hbm, ⟨21, _⟩ => ⟨S_, .f32⟩
  | .hbm, ⟨22, _⟩ => ⟨S_, .f32⟩
  | .hbm, ⟨23, _⟩ => ⟨S11008x1x1, .f32⟩
  | .hbm, ⟨24, _⟩ => ⟨S11008x1x1, .f32⟩
  | .hbm, ⟨25, _⟩ => ⟨S11008x64x1, .f32⟩
  | .hbm, ⟨26, _⟩ => ⟨S11008x64x1, .f32⟩
  | .hbm, ⟨27, _⟩ => ⟨S11008x64x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S11008x64x1, .f32⟩
  | .hbm, ⟨32, _⟩ => ⟨S11008x64x1, .f32⟩
  | .hbm, ⟨33, _⟩ => ⟨S_, .f32⟩
  | .hbm, ⟨34, _⟩ => ⟨S11008x64x1, .f32⟩
  | .hbm, ⟨35, _⟩ => ⟨S11008x64x1, .f32⟩
  | .hbm, ⟨36, _⟩ => ⟨S11008x64x1, .f32⟩
  | .hbm, ⟨37, _⟩ => ⟨S11008x64x1, .f32⟩
  | .hbm, ⟨38, _⟩ => ⟨S11008x64x64, .f32⟩
  | .hbm, ⟨39, _⟩ => ⟨S11008x64x64, .f32⟩
  | .hbm, ⟨40, _⟩ => ⟨S11008x64x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S11008x64x64, .f32⟩
  | .hbm, ⟨45, _⟩ => ⟨S11008x64x64, .f32⟩
  | .hbm, ⟨46, _⟩ => ⟨S_, .f32⟩
  | .hbm, ⟨47, _⟩ => ⟨S11008x64x64, .f32⟩
  | .hbm, ⟨48, _⟩ => ⟨S11008x64x64, .f32⟩
  | .hbm, ⟨49, _⟩ => ⟨S11008x64x64, .f32⟩
  | .hbm, ⟨50, _⟩ => ⟨S11008x64x64, .f32⟩
  | .hbm, ⟨51, _⟩ => ⟨S11008x4096, .f32⟩
  | .hbm, ⟨52, _⟩ => ⟨S1x128x11008, .f32⟩
  | .hbm, ⟨53, _⟩ => ⟨S1x1x11008, .f32⟩
  | .hbm, ⟨54, _⟩ => ⟨S1x128x11008, .f32⟩
  | .hbm, ⟨55, _⟩ => ⟨S1x128x11008, .f32⟩
  | _, _ => ⟨S1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_cst_6 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_cst_8 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]

class Facts₀ : Prop where
  shapeCasts_S11008x4096_S11008x64x64 : S11008x4096.ShapeCasts S11008x64x64
  reducesTo_S11008x64x64_S11008x64_d2 : S11008x64x64.ReducesTo [2] S11008x64
  h_S_ : 0 < S_.numel
  bcast_S11008x64_S11008x64x1_0_1 : S11008x64.BroadcastsInDim S11008x64x1 (![0, 1] : Fin 2 → Fin S11008x64x1.rank)
  bcast_S_S11008x64x1 : S_.BroadcastsInDim S11008x64x1 (![] : Fin 0 → Fin S11008x64x1.rank)
  reducesTo_S11008x64x1_S11008x1_d1 : S11008x64x1.ReducesTo [1] S11008x1
  bcast_S11008x1_S11008x1x1_0_2 : S11008x1.BroadcastsInDim S11008x1x1 (![0, 2] : Fin 2 → Fin S11008x1x1.rank)
  bcast_S_S11008x1x1 : S_.BroadcastsInDim S11008x1x1 (![] : Fin 0 → Fin S11008x1x1.rank)
  bcast_S11008x1x1_S11008x64x1_0_1_2 : S11008x1x1.BroadcastsInDim S11008x64x1 (![0, 1, 2] : Fin 3 → Fin S11008x64x1.rank)
  bcast_S11008x64x1_S11008x64x64_0_1_2 : S11008x64x1.BroadcastsInDim S11008x64x64 (![0, 1, 2] : Fin 3 → Fin S11008x64x64.rank)
  bcast_S_S11008x64x64 : S_.BroadcastsInDim S11008x64x64 (![] : Fin 0 → Fin S11008x64x64.rank)
  shapeCasts_S11008x64x64_S11008x4096 : S11008x64x64.ShapeCasts S11008x4096
  bcast_S11008_S1x1x11008_2 : S11008.BroadcastsInDim S1x1x11008 (![2] : Fin 1 → Fin S1x1x11008.rank)
  bcast_S1x1x11008_S1x128x11008_0_1_2 : S1x1x11008.BroadcastsInDim S1x128x11008 (![0, 1, 2] : Fin 3 → Fin S1x128x11008.rank)
  dot_S1x128x4096_S11008x4096_S1x128x11008_2_1_01_0_n_n_wf : DotDims.WF S1x128x4096 S11008x4096 S1x128x11008 [2] [1] [0, 1] [0] [] []

variable [Facts₀]

def dot_S1x128x4096_S11008x4096_S1x128x11008_2_1_01_0_n_n : DotDims S1x128x4096 S11008x4096 S1x128x11008 where
  lhsContracting := [2]
  rhsContracting := [1]
  lhsNonContracting := [0, 1]
  rhsNonContracting := [0]
  lhsBatch := []
  rhsBatch := []
  wf := dot_S1x128x4096_S11008x4096_S1x128x11008_2_1_01_0_n_n_wf

class Facts : Prop extends Facts₀ where

variable [Facts]
-- ==== Proof.Spec.lean ====
/-
  The mathematics both programs compute, on the extended reals.

  A weight row of 4096 entries is read as 64 blocks of 64 lanes. Its double-scale quantization takes, per block, the
  largest magnitude over the block's lanes divided by 7 and kept at least 1e-8 (the first scale); over the row, the
  largest first scale divided by 15 and kept at least 1e-8 (the second scale); each first scale is replaced by the
  second scale times an integer code in [0, 15] (the first scale over the second, rounded to even, clipped), which is
  the block's step; each entry is replaced by the step times an integer code in [-8, 7] (the entry over the step,
  rounded to even, clipped). Everything depends on ONE row only. The layer is then the product of the activations with
  the dequantized rows, contracted over the 4096 columns, plus a bias per row.

  The constants are the f32 words both programs print; the same word on both sides is never evaluated.
-/
import Idealize.ShloMosaic.PureOps.Ideal
import Idealize.ShloMosaic.Lib.ValueIdx

open scoped BigOperators

noncomputable section

namespace Cert.DoubleScale

open Idealize.ShloMosaic Idealize.ShloMosaic.ValueIdx

/-- One weight row: `r b l` is lane `l` of block `b`. -/
abbrev Row := Fin 64 → Fin 64 → EReal

/-- Column `64 b + l` of a row of 4096 columns. -/
abbrev col (b l : Fin 64) : Fin 4096 := ⟨b.val * 64 + l.val, by have := b.isLt; have := l.isLt; omega⟩
/-- The block a column lies in. -/
abbrev blockOf (k : Fin 4096) : Fin 64 := ⟨k.val / 64, by have := k.isLt; omega⟩
/-- The lane of a column inside its block. -/
abbrev laneOf (k : Fin 4096) : Fin 64 := ⟨k.val % 64, by omega⟩

/-- Row `o` of a matrix with 4096 columns, as blocks of lanes. -/
def rowAt {n : Nat} (w : (⟨2, ![n, 4096]⟩ : Shape).Idx → EReal) (o : Fin n) : Row := fun b l => w (ix2 o (col b l))

/-- The largest magnitude in block `b`: the maximum of `|r b l|` over the lanes, from `-∞`. -/
def blockPeak (r : Row) (b : Fin 64) : EReal :=
  (Finset.univ : Finset (Fin 64)).fold max (Ideal.ofBits .f32 0xFF800000#32)
    fun l => FloatOps.absf (F := Ideal) (φ := .f32) (r b l)

/-- The first scale of block `b`: its peak over 7, at least 1e-8. -/
def scale1 (r : Row) (b : Fin 64) : EReal :=
  max (Ideal.div (blockPeak r b) (Ideal.ofBits .f32 0x40E00000#32)) (Ideal.ofBits .f32 0x322BCC77#32)

/-- The largest first scale of the row, from `-∞`. -/
def rowPeak (r : Row) : EReal :=
  (Finset.univ : Finset (Fin 64)).fold max (Ideal.ofBits .f32 0xFF800000#32) fun b => scale1 r b

/-- The second scale of the row: the largest first scale over 15, at least 1e-8. -/
def scale2 (r : Row) : EReal :=
  max (Ideal.div (rowPeak r) (Ideal.ofBits .f32 0x41700000#32)) (Ideal.ofBits .f32 0x322BCC77#32)

/-- The code of block `b`'s first scale: first over second scale, rounded to even, clipped to [0, 15]. -/
def code1 (r : Row) (b : Fin 64) : EReal :=
  min (Ideal.ofBits .f32 0x41700000#32)
    (max (Ideal.ofBits .f32 0x00000000#32) (Ideal.liftRound Ideal.roundHalfEven (Ideal.div (scale1 r b) (scale2 r))))

/-- The quantization step of block `b`: its code times the second scale. -/
def step (r : Row) (b : Fin 64) : EReal := code1 r b * scale2 r

/-- The dequantized entry: the entry over its block's step, rounded to even, clipped to [-8, 7], times the step. -/
def deq (r : Row) (b l : Fin 64) : EReal :=
  min (Ideal.ofBits .f32 0x40E00000#32)
    (max (Ideal.ofBits .f32 0xC1000000#32) (Ideal.liftRound Ideal.roundHalfEven (Ideal.div (r b l) (step r b)))) * step r b

/-- The layer at activation row `s` and weight row `o`: the activations against the dequantized row, contracted over
    the columns, plus the row's bias. -/
def linearAt {n : Nat} (x : (⟨3, ![1, 128, 4096]⟩ : Shape).Idx → EReal) (w : (⟨2, ![n, 4096]⟩ : Shape).Idx → EReal)
    (bias : (⟨1, ![n]⟩ : Shape).Idx → EReal) (s : Fin 128) (o : Fin n) : EReal :=
  (∑ k : Fin 4096, x (ix3 (0 : Fin 1) s k) * deq (rowAt w o) (blockOf k) (laneOf k)) + bias (ix1 o)

/-- The layer over `n` rows of weights, as an array. The same function serves a block of rows (`n = 256`) and the
    whole matrix (`n = 11008`); the leading axis has extent one. -/
def linear {n : Nat} (x : (⟨3, ![1, 128, 4096]⟩ : Shape).Idx → EReal) (w : (⟨2, ![n, 4096]⟩ : Shape).Idx → EReal)
    (bias : (⟨1, ![n]⟩ : Shape).Idx → EReal) : (⟨3, ![1, 128, n]⟩ : Shape).Idx → EReal :=
  fun i => linearAt x w bias ⟨(i 1).val, (i 1).isLt⟩ ⟨(i 2).val, (i 2).isLt⟩

end Cert.DoubleScale

end
-- ==== Proof.Layout.lean ====
/-
  The layout operations of the kernel's body read at an index: the casts between a block of 256 rows of 4096 columns
  and its 64 x 64 split, the keep-dimension casts after the two maxima, the broadcasts back along blocks and lanes,
  and the two maxima themselves as folds of `max` over the reduced axis.
-/
import Idealize.ShloMosaic.Lib.Pipeline.Value
import Idealize.ShloMosaic.Lib.ValueIdx
import Idealize.ShloMosaic.PureOps.Ideal.Laws
import proofs.«111635_j60773787239146_1_alg».proof.Proof.Spec

noncomputable section

namespace Cert.DoubleScale

open Idealize.ShloMosaic Idealize.ShloMosaic.ValueIdx

/-- The 64 x 64 split of a block read at (row, block, lane) is the block at (row, 64 block + lane). -/
theorem cast_split_apply {α : Type} (x : (⟨2, ![256, 4096]⟩ : Shape).Idx → α)
    (h : (⟨2, ![256, 4096]⟩ : Shape).ShapeCasts ⟨3, ![256, 64, 64]⟩) (j : Fin 256) (b l : Fin 64) :
    shapeCast ⟨3, ![256, 64, 64]⟩ x h (ix3 j b l) = x (ix2 j (col b l)) :=
  shapeCast_apply x h (ix3 j b l) (ix2 j (col b l)) (by
    rw [Shape.rowMajor_val_two, Shape.rowMajor_val_three]
    show j.val * 4096 + (b.val * 64 + l.val) = (j.val * 64 + b.val) * 64 + l.val
    omega)

/-- The split merged back, read at (row, column), is the split at (row, column / 64, column % 64). -/
theorem cast_merge_apply {α : Type} (y : (⟨3, ![256, 64, 64]⟩ : Shape).Idx → α)
    (h : (⟨3, ![256, 64, 64]⟩ : Shape).ShapeCasts ⟨2, ![256, 4096]⟩) (j : Fin 256) (k : Fin 4096) :
    shapeCast ⟨2, ![256, 4096]⟩ y h (ix2 j k) = y (ix3 j (blockOf k) (laneOf k)) :=
  shapeCast_apply y h (ix2 j k) (ix3 j (blockOf k) (laneOf k)) (by
    rw [Shape.rowMajor_val_two, Shape.rowMajor_val_three]
    show (j.val * 64 + k.val / 64) * 64 + k.val % 64 = j.val * 4096 + k.val
    omega)

/-- The activations without their unit axis, read at (s, k), are the activations at (0, s, k). -/
theorem cast_dropUnit_apply {α : Type} (x : (⟨3, ![1, 128, 4096]⟩ : Shape).Idx → α)
    (h : (⟨3, ![1, 128, 4096]⟩ : Shape).ShapeCasts ⟨2, ![128, 4096]⟩) (s : Fin 128) (k : Fin 4096) :
    shapeCast ⟨2, ![128, 4096]⟩ x h (ix2 s k) = x (ix3 0 s k) :=
  shapeCast_apply x h (ix2 s k) (ix3 0 s k) (by
    rw [Shape.rowMajor_val_two, Shape.rowMajor_val_three]
    show (0 * 128 + s.val) * 4096 + k.val = s.val * 4096 + k.val
    omega)

/-- A per-row value broadcast along the blocks reads the row's value. -/
theorem bcast_blocks_apply {α : Type} (x : (⟨3, ![256, 1, 1]⟩ : Shape).Idx → α)
    (h : (⟨3, ![256, 1, 1]⟩ : Shape).Broadcasts ⟨3, ![256, 64, 1]⟩) (j : Fin 256) (b : Fin 64) (z : Fin 1) :
    broadcastTo ⟨3, ![256, 64, 1]⟩ x h (ix3 j b z) = x (ix3 j 0 0) :=
  broadcastTo_apply x h (ix3 j b z) (ix3 j 0 0) (fun a => match a with
    | ⟨0, _⟩ => by show j.val = if (256 : Nat) = 1 then 0 else j.val; rw [if_neg (by decide)]
    | ⟨1, _⟩ => by show 0 = if (1 : Nat) = 1 then 0 else b.val; rw [if_pos rfl]
    | ⟨2, _⟩ => by show 0 = if (1 : Nat) = 1 then 0 else z.val; rw [if_pos rfl])

/-- A per-block value broadcast along the lanes reads the block's value. -/
theorem bcast_lanes_apply {α : Type} (x : (⟨3, ![256, 64, 1]⟩ : Shape).Idx → α)
    (h : (⟨3, ![256, 64, 1]⟩ : Shape).Broadcasts ⟨3, ![256, 64, 64]⟩) (j : Fin 256) (b l : Fin 64) :
    broadcastTo ⟨3, ![256, 64, 64]⟩ x h (ix3 j b l) = x (ix3 j b 0) :=
  broadcastTo_apply x h (ix3 j b l) (ix3 j b 0) (fun a => match a with
    | ⟨0, _⟩ => by show j.val = if (256 : Nat) = 1 then 0 else j.val; rw [if_neg (by decide)]
    | ⟨1, _⟩ => by show b.val = if (64 : Nat) = 1 then 0 else b.val; rw [if_neg (by decide)]
    | ⟨2, _⟩ => by show 0 = if (1 : Nat) = 1 then 0 else l.val; rw [if_pos rfl])

/-- The maximum over the lanes, kept as a unit axis, read at (row, block, 0): the fold of `max` over the block's lanes. -/
theorem lanes_max_apply (v : FVec Ideal ⟨3, ![256, 64, 64]⟩ .f32) (acc : BitVec 32)
    (h : (⟨3, ![256, 64, 64]⟩ : Shape).Reduces [2] ⟨2, ![256, 64]⟩) (hφ : FKind.Formats .f32)
    (hacc : acc = FKind.maximumf.neutral .f32 hφ) (hc : (⟨2, ![256, 64]⟩ : Shape).ShapeCasts ⟨3, ![256, 64, 1]⟩)
    (j : Fin 256) (b : Fin 64) (z : Fin 1) :
    shapeCast ⟨3, ![256, 64, 1]⟩ (multiReduction .maximumf [2] ⟨2, ![256, 64]⟩ v acc h hφ hacc) hc (ix3 j b z)
      = (Finset.univ : Finset (Fin 64)).fold max (Ideal.ofBits .f32 acc) fun l => v (ix3 j b l) := by
  rw [shapeCast_apply _ hc (ix3 j b z) (ix2 j b) (by
    rw [Shape.rowMajor_val_two, Shape.rowMajor_val_three]
    have := z.isLt
    show j.val * 64 + b.val = (j.val * 64 + b.val) * 1 + z.val
    omega)]
  rw [Ideal.multiReduction_maximumf_single]
  have hf : (v ∘ h.lift (ix2 j b)) = fun l : Fin 64 => v (ix3 j b l) :=
    funext fun l => congrArg v (by funext c; apply Fin.ext; fin_cases c <;> rfl)
  exact congrArg (fun f => Finset.fold max (Ideal.ofBits .f32 acc) f (Finset.univ : Finset (Fin 64))) hf

/-- The maximum over the blocks, kept as a unit axis, read at (row, 0, 0): the fold of `max` over the row's blocks. -/
theorem blocks_max_apply (v : FVec Ideal ⟨3, ![256, 64, 1]⟩ .f32) (acc : BitVec 32)
    (h : (⟨3, ![256, 64, 1]⟩ : Shape).Reduces [1] ⟨2, ![256, 1]⟩) (hφ : FKind.Formats .f32)
    (hacc : acc = FKind.maximumf.neutral .f32 hφ) (hc : (⟨2, ![256, 1]⟩ : Shape).ShapeCasts ⟨3, ![256, 1, 1]⟩)
    (j : Fin 256) (z z' : Fin 1) :
    shapeCast ⟨3, ![256, 1, 1]⟩ (multiReduction .maximumf [1] ⟨2, ![256, 1]⟩ v acc h hφ hacc) hc (ix3 j z z')
      = (Finset.univ : Finset (Fin 64)).fold max (Ideal.ofBits .f32 acc) fun b => v (ix3 j b 0) := by
  rw [shapeCast_apply _ hc (ix3 j z z') (ix2 j 0) (by
    rw [Shape.rowMajor_val_two, Shape.rowMajor_val_three]
    have := z.isLt; have := z'.isLt
    show j.val * 1 + 0 = (j.val * 1 + z.val) * 1 + z'.val
    omega)]
  rw [Ideal.multiReduction_maximumf_single]
  have hf : (v ∘ h.lift (ix2 j 0)) = fun b : Fin 64 => v (ix3 j b 0) :=
    funext fun b => congrArg v (by funext c; apply Fin.ext; fin_cases c <;> rfl)
  exact congrArg (fun f => Finset.fold max (Ideal.ofBits .f32 acc) f (Finset.univ : Finset (Fin 64))) hf

end Cert.DoubleScale

end
-- ==== Proof.KernelRow.lean ====
/-
  The kernel's body at an index. The body splits its block of 256 weight rows into 64 x 64, takes the two maxima,
  forms the two scales, the block steps and the dequantized entries with whole-vector operations, merges the split
  back and multiplies the activations against it. Read row by row this is the double-scale dequantization of each
  row of the block (`Cert.DoubleScale.deq`), and the product is the sum over the 4096 columns.
-/
import proofs.«111635_j60773787239146_1_alg».proof.Proof.Gen.KernelIdeal.Skeleton
import proofs.«111635_j60773787239146_1_alg».proof.Proof.Layout

open scoped BigOperators

noncomputable section

namespace Cert.KernelIdeal.RowValue

open Cert.KernelIdeal Cert.KernelIdeal.Gen Cert.DoubleScale Idealize.ShloMosaic Idealize.ShloMosaic.ValueIdx

/-- Row `j` of the split block, as blocks of lanes. -/
abbrev rowOf (v1 : FVec Ideal S256x64x64 .f32) (j : Fin 256) : Row := fun b l => v1 (ix3 j b l)

/-- The first scales of every row of the block, one per (row, block). -/
def firstScale (v1 : FVec Ideal S256x64x64 .f32) : FVec Ideal S256x64x1 .f32 :=
  maximumf
    (divf
      (shapeCast S256x64x1
        (multiReduction .maximumf [2] S256x64 (absf v1) 0xFF800000#32 reduces_S256x64x64_S256x64 (.inl rfl) rfl)
        shapeCasts_S256x64_S256x64x1)
      (broadcast S256x64x1 (Scalar.ofBits .f32 0x40E00000#32)))
    (broadcast S256x64x1 (Scalar.ofBits .f32 0x322BCC77#32))

theorem firstScale_apply (v1 : FVec Ideal S256x64x64 .f32) (j : Fin 256) (b : Fin 64) (z : Fin 1) :
    firstScale v1 (ix3 j b z) = scale1 (rowOf v1 j) b := by
  unfold scale1 blockPeak
  exact congrArg (fun p => max (Ideal.div p (Ideal.ofBits .f32 0x40E00000#32)) (Ideal.ofBits .f32 0x322BCC77#32))
    (lanes_max_apply (absf v1) 0xFF800000#32 reduces_S256x64x64_S256x64 (.inl rfl) rfl shapeCasts_S256x64_S256x64x1 j b z)

/-- The second scale of every row of the block. -/
def secondScale (v1 : FVec Ideal S256x64x64 .f32) : FVec Ideal S256x1x1 .f32 :=
  maximumf
    (divf
      (shapeCast S256x1x1
        (multiReduction .maximumf [1] S256x1 (firstScale v1) 0xFF800000#32 reduces_S256x64x1_S256x1 (.inl rfl) rfl)
        shapeCasts_S256x1_S256x1x1)
      (broadcast S256x1x1 (Scalar.ofBits .f32 0x41700000#32)))
    (broadcast S256x1x1 (Scalar.ofBits .f32 0x322BCC77#32))

theorem secondScale_apply (v1 : FVec Ideal S256x64x64 .f32) (j : Fin 256) (z z' : Fin 1) :
    secondScale v1 (ix3 j z z') = scale2 (rowOf v1 j) := by
  unfold scale2 rowPeak
  refine (congrArg (fun p => max (Ideal.div p (Ideal.ofBits .f32 0x41700000#32)) (Ideal.ofBits .f32 0x322BCC77#32))
    (blocks_max_apply (firstScale v1) 0xFF800000#32 reduces_S256x64x1_S256x1 (.inl rfl) rfl shapeCasts_S256x1_S256x1x1 j z z')).trans ?_
  simp only [firstScale_apply]

/-- The step of every (row, block): the clipped rounded ratio of the two scales, times the second scale. -/
def stepOf (v1 : FVec Ideal S256x64x64 .f32) : FVec Ideal S256x64x1 .f32 :=
  mulf
    (minimumf (broadcast S256x64x1 (Scalar.ofBits .f32 0x41700000#32))
      (maximumf (broadcast S256x64x1 (Scalar.ofBits .f32 0x00000000#32))
        (roundeven (divf (firstScale v1) (broadcastTo S256x64x1 (secondScale v1) broadcasts_S256x1x1_S256x64x1)))))
    (broadcastTo S256x64x1 (secondScale v1) broadcasts_S256x1x1_S256x64x1)

theorem stepOf_apply (v1 : FVec Ideal S256x64x64 .f32) (j : Fin 256) (b : Fin 64) (z : Fin 1) :
    stepOf v1 (ix3 j b z) = step (rowOf v1 j) b := by
  unfold stepOf step code1
  show min (Ideal.ofBits .f32 0x41700000#32)
      (max (Ideal.ofBits .f32 0x00000000#32)
        (Ideal.liftRound Ideal.roundHalfEven
          (Ideal.div (firstScale v1 (ix3 j b z))
            (broadcastTo S256x64x1 (secondScale v1) broadcasts_S256x1x1_S256x64x1 (ix3 j b z)))))
      * broadcastTo S256x64x1 (secondScale v1) broadcasts_S256x1x1_S256x64x1 (ix3 j b z) = _
  rw [bcast_blocks_apply, firstScale_apply, secondScale_apply]

/-- The dequantized split block: the clipped rounded ratio of each entry to its step, times the step. -/
def dequant (v1 : FVec Ideal S256x64x64 .f32) : FVec Ideal S256x64x64 .f32 :=
  mulf
    (minimumf (broadcast S256x64x64 (Scalar.ofBits .f32 0x40E00000#32))
      (maximumf (broadcast S256x64x64 (Scalar.ofBits .f32 0xC1000000#32))
        (roundeven (divf v1 (broadcastTo S256x64x64 (stepOf v1) broadcasts_S256x64x1_S256x64x64)))))
    (broadcastTo S256x64x64 (stepOf v1) broadcasts_S256x64x1_S256x64x64)

theorem dequant_apply (v1 : FVec Ideal S256x64x64 .f32) (j : Fin 256) (b l : Fin 64) :
    dequant v1 (ix3 j b l) = deq (rowOf v1 j) b l := by
  unfold dequant deq
  show min (Ideal.ofBits .f32 0x40E00000#32)
      (max (Ideal.ofBits .f32 0xC1000000#32)
        (Ideal.liftRound Ideal.roundHalfEven
          (Ideal.div (v1 (ix3 j b l))
            (broadcastTo S256x64x64 (stepOf v1) broadcasts_S256x64x1_S256x64x64 (ix3 j b l)))))
      * broadcastTo S256x64x64 (stepOf v1) broadcasts_S256x64x1_S256x64x64 (ix3 j b l) = _
  rw [bcast_lanes_apply, stepOf_apply]

/-- The body's product payload is the activations (unit axis dropped) against the merged dequantized block, into zero. -/
theorem pay2_eq (P0 : Vec Ideal S256x4096 .f32) (P1 : Vec Ideal S1x128x4096 .f32) :
    k0_pay2 (F := Ideal) P0 P1 = matmul dot_S128x4096_S256x4096_S128x256_1_1_0_0_n_n none
      (truncf .bf16 (shapeCast S128x4096 P1 shapeCasts_S1x128x4096_S128x4096) bitsLt_bf16_f32)
      (truncf .bf16
        (shapeCast S256x4096 (dequant (shapeCast S256x64x64 P0 shapeCasts_S256x4096_S256x64x64))
          shapeCasts_S256x64x64_S256x4096) bitsLt_bf16_f32)
      (constant S128x256 .f32 0x00000000#32) := rfl

/-! The product's operand indices: at output (s, j) and column k the left operand is read at (s, k), the right at (j, k). -/

theorem lhs_axis0 (i : S128x256.Idx) (q : dot_S128x4096_S256x4096_S128x256_1_1_0_0_n_n.contr.Idx) :
    (dot_S128x4096_S256x4096_S128x256_1_1_0_0_n_n.lhsIdx i q 0).val = (i 0).val := by
  unfold DotDims.lhsIdx
  rw [dif_neg (show ¬(0 : Fin S128x4096.rank) ∈ dot_S128x4096_S256x4096_S128x256_1_1_0_0_n_n.lhsBatch by decide), dif_pos (show (0 : Fin S128x4096.rank) ∈ dot_S128x4096_S256x4096_S128x256_1_1_0_0_n_n.lhsNonContracting by decide)]
  rfl
theorem lhs_axis1 (i : S128x256.Idx) (q : dot_S128x4096_S256x4096_S128x256_1_1_0_0_n_n.contr.Idx) :
    (dot_S128x4096_S256x4096_S128x256_1_1_0_0_n_n.lhsIdx i q 1).val = (q ⟨0, by decide⟩).val :=
  dot_S128x4096_S256x4096_S128x256_1_1_0_0_n_n.lhsIdx_val_of_single rfl i q
theorem rhs_axis0 (i : S128x256.Idx) (q : dot_S128x4096_S256x4096_S128x256_1_1_0_0_n_n.contr.Idx) :
    (dot_S128x4096_S256x4096_S128x256_1_1_0_0_n_n.rhsIdx i q 0).val = (i 1).val := by
  unfold DotDims.rhsIdx
  rw [dif_neg (show ¬(0 : Fin S256x4096.rank) ∈ dot_S128x4096_S256x4096_S128x256_1_1_0_0_n_n.rhsBatch by decide), dif_pos (show (0 : Fin S256x4096.rank) ∈ dot_S128x4096_S256x4096_S128x256_1_1_0_0_n_n.rhsNonContracting by decide)]
  rfl
theorem rhs_axis1 (i : S128x256.Idx) (q : dot_S128x4096_S256x4096_S128x256_1_1_0_0_n_n.contr.Idx) :
    (dot_S128x4096_S256x4096_S128x256_1_1_0_0_n_n.rhsIdx i q 1).val = (q ⟨0, by decide⟩).val :=
  dot_S128x4096_S256x4096_S128x256_1_1_0_0_n_n.rhsIdx_val_of_single rfl i q

/-- The product payload at (s, j): the sum over the columns of the activation times row `j`'s dequantized entry. -/
theorem pay2_apply (P0 : Vec Ideal S256x4096 .f32) (P1 : Vec Ideal S1x128x4096 .f32) (s : Fin 128) (j : Fin 256) :
    k0_pay2 (F := Ideal) P0 P1 (ix2 s j)
      = ∑ k : Fin 4096, P1 (ix3 0 s k) * deq (rowAt (n := 256) P0 j) (blockOf k) (laneOf k) := by
  rw [pay2_eq]
  simp only [matmul]
  rw [Ideal.matmul_constant_zero_apply, ← Equiv.sum_comp (ValueIdx.contrEquiv1 dot_S128x4096_S256x4096_S128x256_1_1_0_0_n_n 4096 rfl rfl).symm]
  refine Finset.sum_congr rfl fun k _ => ?_
  have hk := ValueIdx.contrEquiv1_symm_val dot_S128x4096_S256x4096_S128x256_1_1_0_0_n_n 4096 rfl rfl k
  have el : dot_S128x4096_S256x4096_S128x256_1_1_0_0_n_n.lhsIdx (ix2 s j) ((ValueIdx.contrEquiv1 dot_S128x4096_S256x4096_S128x256_1_1_0_0_n_n 4096 rfl rfl).symm k) = ix2 s k := funext fun a => Fin.ext (by
    match a with
    | ⟨0, _⟩ => exact lhs_axis0 _ _
    | ⟨1, _⟩ => exact (lhs_axis1 _ _).trans hk)
  have er : dot_S128x4096_S256x4096_S128x256_1_1_0_0_n_n.rhsIdx (ix2 s j) ((ValueIdx.contrEquiv1 dot_S128x4096_S256x4096_S128x256_1_1_0_0_n_n 4096 rfl rfl).symm k) = ix2 j k := funext fun a => Fin.ext (by
    match a with
    | ⟨0, _⟩ => exact rhs_axis0 _ _
    | ⟨1, _⟩ => exact (rhs_axis1 _ _).trans hk)
  rw [el, er]
  show shapeCast S128x4096 P1 shapeCasts_S1x128x4096_S128x4096 (ix2 s k)
      * shapeCast S256x4096 (dequant (shapeCast S256x64x64 P0 shapeCasts_S256x4096_S256x64x64)) shapeCasts_S256x64x64_S256x4096 (ix2 j k) = _
  rw [cast_dropUnit_apply, cast_merge_apply, dequant_apply]
  have hrow : rowOf (shapeCast S256x64x64 P0 shapeCasts_S256x4096_S256x64x64) j = rowAt (n := 256) P0 j :=
    funext fun b => funext fun l => cast_split_apply P0 shapeCasts_S256x4096_S256x64x64 j b l
  rw [hrow]

end Cert.KernelIdeal.RowValue

end
-- ==== Proof.BlockRows.lean ====
/-
  A block of 256 consecutive weight rows. The dequantization of a row depends on that row alone, so the layer over
  the block, fed the block's rows and bias entries, is the layer over the whole matrix at those rows: block `T`'s
  row `j` is the matrix's row `256 T + j` (43 blocks of 256 rows make the 11008 rows).
-/
import proofs.«111635_j60773787239146_1_alg».proof.Proof.Spec

noncomputable section

namespace Cert.DoubleScale

open Idealize.ShloMosaic Idealize.ShloMosaic.ValueIdx

theorem linearAt_block (x xb : (⟨3, ![1, 128, 4096]⟩ : Shape).Idx → EReal)
    (w : (⟨2, ![11008, 4096]⟩ : Shape).Idx → EReal) (wb : (⟨2, ![256, 4096]⟩ : Shape).Idx → EReal)
    (bias : (⟨1, ![11008]⟩ : Shape).Idx → EReal) (bb : (⟨1, ![256]⟩ : Shape).Idx → EReal) (T : Nat) (hT : T < 43)
    (hx : xb = x)
    (hw : ∀ (j : Fin 256) (k : Fin 4096),
      wb (ix2 j k) = w (ix2 (⟨T * 256 + j.val, by have := j.isLt; omega⟩ : Fin 11008) k))
    (hb : ∀ j : Fin 256, bb (ix1 j) = bias (ix1 (⟨T * 256 + j.val, by have := j.isLt; omega⟩ : Fin 11008)))
    (s : Fin 128) (j : Fin 256) :
    linearAt (n := 256) xb wb bb s j
      = linearAt (n := 11008) x w bias s ⟨T * 256 + j.val, by have := j.isLt; omega⟩ := by
  subst hx
  unfold linearAt
  rw [hb j]
  have hrow : rowAt (n := 256) wb j = rowAt (n := 11008) w ⟨T * 256 + j.val, by have := j.isLt; omega⟩ :=
    funext fun b => funext fun l => hw j (col b l)
  rw [hrow]

end Cert.DoubleScale

end
-- ==== Proof.Blocks.lean ====
/-
  From blocks to the array. Grid point `t` stages the whole activations, weight rows `256 t … 256 t + 255` and the
  matching bias entries, and writes back columns `256 t … 256 t + 255` of the result. What it writes is the layer over
  its block of rows, which is the layer over the whole matrix at those rows; the 43 blocks tile the result, so after
  the run the result array is the layer of the three argument arrays.
-/
import proofs.«111635_j60773787239146_1_alg».proof.Proof.Gen.KernelIdeal.Value
import proofs.«111635_j60773787239146_1_alg».proof.Proof.KernelRow
import proofs.«111635_j60773787239146_1_alg».proof.Proof.BlockRows

noncomputable section

namespace Cert.KernelIdeal.ArrayValue

open Cert.KernelIdeal Cert.KernelIdeal.Gen Cert.KernelIdeal.Value Cert.KernelIdeal.RowValue Cert.DoubleScale
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays as launched. -/
abbrev argX (c : Dev nD) : S1x128x4096.Idx → EReal := (m ((c : Thread nD τ).loc main_arg0) : S1x128x4096.Idx → Elt Ideal .f32)
abbrev argW (c : Dev nD) : S11008x4096.Idx → EReal := (m ((c : Thread nD τ).loc main_arg1) : S11008x4096.Idx → Elt Ideal .f32)
abbrev argB (c : Dev nD) : S11008.Idx → EReal := (m ((c : Thread nD τ).loc main_arg2) : S11008.Idx → Elt Ideal .f32)

/-- The result array: the layer over all 11008 rows of the argument arrays. -/
abbrev result (c : Dev nD) : S1x128x11008.Idx → EReal := linear (n := 11008) (argX m c) (argW m c) (argB m c)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps over the grid: the activations' block never moves; the weights', the bias's and the result's block
    index along the row axis is the point's number. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 1) = t.val
    ∧ win0_3.index t (0 : Fin 3) = 0 ∧ win0_3.index t (1 : Fin 3) = 0 ∧ win0_3.index t (2 : Fin 3) = t.val :=
  (by decide +kernel : ∀ t : Fin grid0.N, _)

/-- The activations' block at any point is the whole array. -/
theorem xblk_eq (c : Dev nD) (t : Fin cfg0.N) : (iblk m c 0 t : S1x128x4096.Idx → EReal) = argX m c := by
  obtain ⟨a0, a1, a2, -⟩ := idx_facts t
  funext j
  show V m c main_arg0 (((cfg0.win 0).blk t).view.emb j) = V m c main_arg0 j
  refine congrArg (V m c main_arg0) (funext fun a => Fin.ext ?_)
  match a with
  | ⟨0, _⟩ => show win0_0.index t (0 : Fin 3) * 1 + 1 * (j 0).val = (j 0).val; omega
  | ⟨1, _⟩ => show win0_0.index t (1 : Fin 3) * 128 + 1 * (j 1).val = (j 1).val; omega
  | ⟨2, _⟩ => show win0_0.index t (2 : Fin 3) * 4096 + 1 * (j 2).val = (j 2).val; omega

/-- The weights' block at point `t`, row `j`, is the matrix's row `256 t + j`. -/
theorem wblk_apply (c : Dev nD) (t : Fin cfg0.N) (j : Fin 256) (k : Fin 4096) :
    (iblk m c 1 t : S256x4096.Idx → EReal) (ix2 j k)
      = argW m c (ix2 (⟨t.val * 256 + j.val, by have ht : t.val < 43 := t.isLt; have := j.isLt; omega⟩ : Fin 11008) k) := by
  obtain ⟨-, -, -, b0, b1, -⟩ := idx_facts t
  show V m c main_arg1 (((cfg0.win 1).blk t).view.emb (ix2 j k)) = V m c main_arg1 (ix2 (⟨t.val * 256 + j.val, _⟩ : Fin 11008) k)
  refine congrArg (V m c main_arg1) (funext fun a => Fin.ext ?_)
  match a with
  | ⟨0, _⟩ => show win0_1.index t (0 : Fin 2) * 256 + 1 * j.val = t.val * 256 + j.val; omega
  | ⟨1, _⟩ => show win0_1.index t (1 : Fin 2) * 4096 + 1 * k.val = k.val; omega

/-- The bias's block at point `t`, entry `j`, is the bias's entry `256 t + j`. -/
theorem bblk_apply (c : Dev nD) (t : Fin cfg0.N) (j : Fin 256) :
    (iblk m c 2 t : S256.Idx → EReal) (ix1 j)
      = argB m c (ix1 (⟨t.val * 256 + j.val, by have ht : t.val < 43 := t.isLt; have := j.isLt; omega⟩ : Fin 11008)) := by
  obtain ⟨-, -, -, -, -, d0, -⟩ := idx_facts t
  show V m c main_arg2 (((cfg0.win 2).blk t).view.emb (ix1 j)) = V m c main_arg2 (ix1 (⟨t.val * 256 + j.val, _⟩ : Fin 11008))
  refine congrArg (V m c main_arg2) (funext fun a => Fin.ext ?_)
  match a with
  | ⟨0, _⟩ => show win0_2.index t (0 : Fin 1) * 256 + 1 * j.val = t.val * 256 + j.val; omega

/-- What the body leaves in its output block, at block index `y`: the layer over the staged block of rows. -/
theorem block_eq (P0 : Vec Ideal S256x4096 .f32) (P1 : Vec Ideal S1x128x4096 .f32) (P2 : Vec Ideal S256 .f32)
    (y : S1x128x256.Idx) :
    E3 P0 P1 P2 y = linearAt (n := 256) P1 P0 P2 ⟨(y 1).val, (y 1).isLt⟩ ⟨(y 2).val, (y 2).isLt⟩ := by
  unfold linearAt
  show k0_pay2 (F := Ideal) P0 P1 (ix3_0 y) + P2 (ix3_1 y) = _
  have e0 : ix3_0 y = ix2 (⟨(y 1).val, (y 1).isLt⟩ : Fin 128) (⟨(y 2).val, (y 2).isLt⟩ : Fin 256) :=
    funext fun a => by match a with | ⟨0, _⟩ => rfl | ⟨1, _⟩ => rfl
  have e1 : ix3_1 y = ix1 (⟨(y 2).val, (y 2).isLt⟩ : Fin 256) := funext fun a => by match a with | ⟨0, _⟩ => rfl
  rw [e0, e1, pay2_apply]

/-- The body's output block, for any staged blocks, at block index `y`: the layer over the staged rows. -/
theorem out_eq (x0 : Vec Ideal S1x128x4096 .f32) (x1 : Vec Ideal S256x4096 .f32) (x2 : Vec Ideal S256 .f32)
    (y : S1x128x256.Idx) :
    out0_3 x0 x1 x2 y = linearAt (n := 256) x0 x1 x2 ⟨(y 1).val, (y 1).isLt⟩ ⟨(y 2).val, (y 2).isLt⟩ := by
  unfold out0_3
  simp only [View.ld_unit_zero (S := S256x4096) hz2, View.ld_unit_zero (S := S1x128x4096) hz3, View.ld_unit_zero (S := S256) hz1]
  exact (canon3_eq x1 x0 x2 y).trans (block_eq x1 x0 x2 y)

/-- The layer over point `t`'s staged blocks is the layer over the argument arrays at rows `256 t + j`. -/
theorem point_eq (c : Dev nD) (t : Fin cfg0.N) (s : Fin 128) (j : Fin 256) :
    linearAt (n := 256) (iblk m c 0 t : S1x128x4096.Idx → EReal) (iblk m c 1 t : S256x4096.Idx → EReal)
        (iblk m c 2 t : S256.Idx → EReal) s j
      = linearAt (n := 11008) (argX m c) (argW m c) (argB m c) s
          ⟨t.val * 256 + j.val, by have ht : t.val < 43 := t.isLt; have := j.isLt; omega⟩ :=
  linearAt_block (argX m c) (iblk m c 0 t : S1x128x4096.Idx → EReal) (argW m c) (iblk m c 1 t : S256x4096.Idx → EReal)
    (argB m c) (iblk m c 2 t : S256.Idx → EReal) t.val (show t.val < 43 from t.isLt)
    (xblk_eq m c t) (wblk_apply m c t) (bblk_apply m c t) s j

/-- WHAT POINT `t` WRITES BACK is block `t` of the result. -/
theorem flushed_eq (c : Dev nD) (t : Fin cfg0.N) :
    (dats m 0 c).flushed 3 t = ((cfg0.win 3).blk t).view.read (Elt Ideal) (result m c) := by
  rw [flushed3]
  obtain ⟨-, -, -, -, -, -, o0, o1, o2⟩ := idx_facts t
  funext y
  refine (out_eq (iblk m c 0 t) (iblk m c 1 t) (iblk m c 2 t) ((cfg0.win 3).xinj (grid0.coords t) y)).trans ?_
  refine (point_eq m c t _ _).trans ?_
  refine Eq.trans ?_ (show linearAt (n := 11008) (argX m c) (argW m c) (argB m c)
      ⟨((((cfg0.win 3).blk t).view.emb y) 1).val, ((((cfg0.win 3).blk t).view.emb y) 1).isLt⟩
      ⟨((((cfg0.win 3).blk t).view.emb y) 2).val, ((((cfg0.win 3).blk t).view.emb y) 2).isLt⟩
      = ((cfg0.win 3).blk t).view.read (Elt Ideal) (result m c) y from rfl)
  have key : ∀ (s s' : Fin 128) (o o' : Fin 11008), s.val = s'.val → o.val = o'.val →
      linearAt (n := 11008) (argX m c) (argW m c) (argB m c) s o
        = linearAt (n := 11008) (argX m c) (argW m c) (argB m c) s' o' := by
    intro s s' o o' hs ho; rw [Fin.ext hs, Fin.ext ho]
  refine key _ _ _ _ ?_ ?_
  · show (y 1).val = win0_3.index t (1 : Fin 3) * 128 + 1 * (y 1).val; omega
  · show t.val * 256 + (y 2).val = win0_3.index t (2 : Fin 3) * 256 + 1 * (y 2).val; omega

/-- An index of the result is in point `t`'s block iff each coordinate is in the block's range on its axis. -/
theorem mem_blk (t : Fin cfg0.N) (i : S1x128x11008.Idx) :
    i ∈ ((cfg0.win 3).blk t).view.set ↔ ∀ a : Fin 3, win0_3.index t a * S1x128x256.size a ≤ (i a).val ∧ (i a).val < win0_3.index t a * S1x128x256.size a + S1x128x256.size a := by
  show i ∈ ((View.whole main_v0).slice (win0_3.rect t)).set ↔ _
  rw [View.set_slice_whole, Rect.mem_set_unit]
  exact Iff.rfl

/-- Every index of the result lies in the block of the point numbered by its column over 256. -/
theorem cover (i : S1x128x11008.Idx) :
    ∃ t : Fin cfg0.N, (cfg0.win 3).flush t = true ∧ i ∈ ((cfg0.win 3).blk t).view.set := by
  have h0 : (i 0).val < 1 := (i 0).isLt
  have h1 : (i 1).val < 128 := (i 1).isLt
  have h2 : (i 2).val < 11008 := (i 2).isLt
  refine ⟨⟨(i 2).val / 256, by show (i 2).val / 256 < 43; omega⟩, flush0_3 _, ?_⟩
  obtain ⟨-, -, -, -, -, -, o0, o1, o2⟩ := idx_facts ⟨(i 2).val / 256, by show (i 2).val / 256 < 43; omega⟩
  have o2' : win0_3.index ⟨(i 2).val / 256, by show (i 2).val / 256 < 43; omega⟩ (2 : Fin 3) = (i 2).val / 256 := o2
  rw [mem_blk]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 128 ≤ (i 1).val ∧ (i 1).val < win0_3.index _ (1 : Fin 3) * 128 + 128; omega
  | ⟨2, _⟩ => show win0_3.index _ (2 : Fin 3) * 256 ≤ (i 2).val ∧ (i 2).val < win0_3.index _ (2 : Fin 3) * 256 + 256; omega

/-- THE ARRAY after the run is the layer of the argument arrays. -/
theorem final (c : Dev nD) : (dats m 0 c).arrAt 3 cfg0.N = result m c :=
  (dats m 0 c).arrAt_eq_of_cover 3 (result m c) (fun t _ => flushed_eq m c t) cover

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.RefRow.lean ====
/-
  The reference at an index. It reshapes the whole weight matrix to 11008 x 64 x 64 and applies the same double-scale
  quantization with whole-array host operations; read row by row each stage is the corresponding function of
  `Cert.DoubleScale` of that row (the two lower clips take their operands in the other order, and `max` commutes),
  so its result is `Cert.DoubleScale.linear` of the three arguments.
-/
import proofs.«111635_j60773787239146_1_alg».proof.Proof.Gen.ReferenceIdeal.Read
import proofs.«111635_j60773787239146_1_alg».proof.Proof.Spec

open scoped BigOperators

noncomputable section

namespace Cert.ReferenceIdeal.RowValue

open Cert.ReferenceIdeal Cert.ReferenceIdeal.Gen Cert.ReferenceIdeal.Read Cert.DoubleScale Idealize.ShloMosaic Idealize.ShloMosaic.ValueIdx

variable (x1 : (⟨S11008x4096, .f32⟩ : BufTy).Contents (Elt Ideal))

/-- The reshaped weights at (row, block, lane) are the row's entry. -/
theorem split_apply (o : Fin 11008) (b l : Fin 64) : val_main_v0 (F := Ideal) x1 (ix3 o b l) = rowAt (n := 11008) x1 o b l := by
  rw [val_main_v0_apply]
  exact congrArg x1 (funext fun a => Fin.ext (by
    match a with
    | ⟨0, _⟩ => show ((o.val * 64 + b.val) * 64 + l.val) / 4096 = o.val; have := b.isLt; have := l.isLt; omega
    | ⟨1, _⟩ => show ((o.val * 64 + b.val) * 64 + l.val) % 4096 = b.val * 64 + l.val; have := b.isLt; have := l.isLt; omega))

/-- The maximum over the lanes at (row, block) is the block's peak. -/
theorem v2_apply (o : Fin 11008) (b : Fin 64) : val_main_v2 (F := Ideal) x1 (ix2 o b) = blockPeak (rowAt (n := 11008) x1 o) b := by
  unfold val_main_v2 blockPeak
  rw [Host.reduce_eq_fold_single FloatOps.maximumf _ _ reducesTo_S11008x64x64_S11008x64_d2 (by decide : S11008x64x64.Reduces [2] S11008x64) h_S_]
  have hf : (val_main_v1 (F := Ideal) x1 ∘ (by decide : S11008x64x64.Reduces [2] S11008x64).lift (ix2 o b))
      = fun l : Fin 64 => FloatOps.absf (F := Ideal) (φ := .f32) (rowAt (n := 11008) x1 o b l) :=
    funext fun (l : Fin 64) => by
      show FloatOps.absf (F := Ideal) (φ := .f32) (val_main_v0 (F := Ideal) x1 ((by decide : S11008x64x64.Reduces [2] S11008x64).lift (ix2 o b) l)) = _
      have hl : (by decide : S11008x64x64.Reduces [2] S11008x64).lift (ix2 o b) l = ix3 o b l := by
        funext c; apply Fin.ext; fin_cases c <;> rfl
      exact congrArg (FloatOps.absf (F := Ideal) (φ := .f32)) ((congrArg (val_main_v0 (F := Ideal) x1) hl).trans (split_apply x1 o b l))
  exact congrArg (fun f => Finset.fold max (Ideal.ofBits .f32 0xFF800000#32) f (Finset.univ : Finset (Fin 64))) hf

/-- The clipped quotient at (row, block, 0) is the block's first scale. -/
theorem v6_apply (o : Fin 11008) (b : Fin 64) (z : Fin 1) : val_main_v6 (F := Ideal) x1 (ix3 o b z) = scale1 (rowAt (n := 11008) x1 o) b := by
  have e3 : val_main_v3 (F := Ideal) x1 (ix3 o b z) = blockPeak (rowAt (n := 11008) x1 o) b := by
    rw [val_main_v3_apply]
    exact (congrArg (val_main_v2 (F := Ideal) x1) (funext fun a => by match a with | ⟨0, _⟩ => rfl | ⟨1, _⟩ => rfl)).trans (v2_apply x1 o b)
  show max (Ideal.ofBits .f32 0x322BCC77#32) (Ideal.div (val_main_v3 (F := Ideal) x1 (ix3 o b z)) (Ideal.ofBits .f32 0x40E00000#32)) = _
  rw [e3, max_comm]
  rfl

/-- The maximum over the blocks at (row, 0) is the row's largest first scale. -/
theorem v7_apply (o : Fin 11008) (z : Fin 1) : val_main_v7 (F := Ideal) x1 (ix2 o z) = rowPeak (rowAt (n := 11008) x1 o) := by
  unfold val_main_v7 rowPeak
  rw [Host.reduce_eq_fold_single FloatOps.maximumf _ _ reducesTo_S11008x64x1_S11008x1_d1 (by decide : S11008x64x1.Reduces [1] S11008x1) h_S_]
  have hf : (val_main_v6 (F := Ideal) x1 ∘ (by decide : S11008x64x1.Reduces [1] S11008x1).lift (ix2 o z))
      = fun b : Fin 64 => scale1 (rowAt (n := 11008) x1 o) b :=
    funext fun (b : Fin 64) => by
      show val_main_v6 (F := Ideal) x1 ((by decide : S11008x64x1.Reduces [1] S11008x1).lift (ix2 o z) b) = _
      have hb : (by decide : S11008x64x1.Reduces [1] S11008x1).lift (ix2 o z) b = ix3 o b z := by
        funext c; apply Fin.ext; fin_cases c <;> rfl
      exact (congrArg (val_main_v6 (F := Ideal) x1) hb).trans (v6_apply x1 o b z)
  exact congrArg (fun f => Finset.fold max (Ideal.ofBits .f32 0xFF800000#32) f (Finset.univ : Finset (Fin 64))) hf

/-- The clipped quotient at (row, 0, 0) is the row's second scale. -/
theorem v11_apply (o : Fin 11008) (z z' : Fin 1) : val_main_v11 (F := Ideal) x1 (ix3 o z z') = scale2 (rowAt (n := 11008) x1 o) := by
  have e8 : val_main_v8 (F := Ideal) x1 (ix3 o z z') = rowPeak (rowAt (n := 11008) x1 o) := by
    rw [val_main_v8_apply]
    exact (congrArg (val_main_v7 (F := Ideal) x1) (funext fun a => by match a with | ⟨0, _⟩ => rfl | ⟨1, _⟩ => rfl)).trans (v7_apply x1 o 0)
  show max (Ideal.ofBits .f32 0x322BCC77#32) (Ideal.div (val_main_v8 (F := Ideal) x1 (ix3 o z z')) (Ideal.ofBits .f32 0x41700000#32)) = _
  rw [e8, max_comm]
  rfl

/-- The second scale broadcast along the blocks. -/
theorem v12_apply (o : Fin 11008) (b : Fin 64) (z : Fin 1) : val_main_v12 (F := Ideal) x1 (ix3 o b z) = scale2 (rowAt (n := 11008) x1 o) := by
  rw [val_main_v12_apply]
  exact (congrArg (val_main_v11 (F := Ideal) x1) (funext fun a => by match a with | ⟨0, _⟩ => rfl | ⟨1, _⟩ => rfl | ⟨2, _⟩ => rfl)).trans (v11_apply x1 o 0 0)
theorem v16_apply (o : Fin 11008) (b : Fin 64) (z : Fin 1) : val_main_v16 (F := Ideal) x1 (ix3 o b z) = scale2 (rowAt (n := 11008) x1 o) := by
  rw [val_main_v16_apply]
  exact (congrArg (val_main_v11 (F := Ideal) x1) (funext fun a => by match a with | ⟨0, _⟩ => rfl | ⟨1, _⟩ => rfl | ⟨2, _⟩ => rfl)).trans (v11_apply x1 o 0 0)

/-- The product of the code and the second scale at (row, block, 0) is the block's step. -/
theorem v17_apply (o : Fin 11008) (b : Fin 64) (z : Fin 1) : val_main_v17 (F := Ideal) x1 (ix3 o b z) = step (rowAt (n := 11008) x1 o) b := by
  unfold step code1
  show min (Ideal.ofBits .f32 0x41700000#32)
      (max (Ideal.ofBits .f32 0x00000000#32)
        (Ideal.liftRound Ideal.roundHalfEven
          (Ideal.div (val_main_v6 (F := Ideal) x1 (ix3 o b z)) (val_main_v12 (F := Ideal) x1 (ix3 o b z)))))
      * val_main_v16 (F := Ideal) x1 (ix3 o b z) = _
  rw [v6_apply, v12_apply, v16_apply]

/-- The step broadcast along the lanes. -/
theorem v18_apply (o : Fin 11008) (b l : Fin 64) : val_main_v18 (F := Ideal) x1 (ix3 o b l) = step (rowAt (n := 11008) x1 o) b := by
  rw [val_main_v18_apply]
  exact (congrArg (val_main_v17 (F := Ideal) x1) (funext fun a => by match a with | ⟨0, _⟩ => rfl | ⟨1, _⟩ => rfl | ⟨2, _⟩ => rfl)).trans (v17_apply x1 o b 0)
theorem v22_apply (o : Fin 11008) (b l : Fin 64) : val_main_v22 (F := Ideal) x1 (ix3 o b l) = step (rowAt (n := 11008) x1 o) b := by
  rw [val_main_v22_apply]
  exact (congrArg (val_main_v17 (F := Ideal) x1) (funext fun a => by match a with | ⟨0, _⟩ => rfl | ⟨1, _⟩ => rfl | ⟨2, _⟩ => rfl)).trans (v17_apply x1 o b 0)

/-- The dequantized weights at (row, block, lane). -/
theorem v23_apply (o : Fin 11008) (b l : Fin 64) : val_main_v23 (F := Ideal) x1 (ix3 o b l) = deq (rowAt (n := 11008) x1 o) b l := by
  unfold deq
  show min (Ideal.ofBits .f32 0x40E00000#32)
      (max (Ideal.ofBits .f32 0xC1000000#32)
        (Ideal.liftRound Ideal.roundHalfEven
          (Ideal.div (val_main_v0 (F := Ideal) x1 (ix3 o b l)) (val_main_v18 (F := Ideal) x1 (ix3 o b l)))))
      * val_main_v22 (F := Ideal) x1 (ix3 o b l) = _
  rw [split_apply, v18_apply, v22_apply]

/-- The dequantized weights merged back, at (row, column). -/
theorem v24_apply (o : Fin 11008) (k : Fin 4096) : val_main_v24 (F := Ideal) x1 (ix2 o k) = deq (rowAt (n := 11008) x1 o) (blockOf k) (laneOf k) := by
  rw [val_main_v24_apply]
  exact (congrArg (val_main_v23 (F := Ideal) x1) (funext fun a => Fin.ext (by
    match a with
    | ⟨0, _⟩ => show (o.val * 4096 + k.val) / 4096 = o.val; have := k.isLt; omega
    | ⟨1, _⟩ => show (o.val * 4096 + k.val) / 64 % 64 = k.val / 64; have := k.isLt; omega
    | ⟨2, _⟩ => show (o.val * 4096 + k.val) % 64 = k.val % 64; have := k.isLt; omega))).trans (v23_apply x1 o (blockOf k) (laneOf k))

/-- The reference's result is the layer over all 11008 rows. -/
theorem result_eq (x0 : (⟨S1x128x4096, .f32⟩ : BufTy).Contents (Elt Ideal)) (x2 : (⟨S11008, .f32⟩ : BufTy).Contents (Elt Ideal)) :
    val_main_v28 (F := Ideal) x0 x1 x2 = linear (n := 11008) x0 x1 x2 := by
  funext i
  rw [val_main_v28_apply, val_main_v25_apply, val_main_v27_apply, val_main_v26_apply]
  show (∑ k : Fin 4096, x0 (lidx_main_v25 i k) * val_main_v24 (F := Ideal) x1 (ridx_main_v25 i k)) + x2 (idx_main_v26 (idx_main_v27 i))
    = linearAt (n := 11008) x0 x1 x2 ⟨(i 1).val, (i 1).isLt⟩ ⟨(i 2).val, (i 2).isLt⟩
  unfold linearAt
  have hs : ∀ k : Fin 4096, x0 (lidx_main_v25 i k) * val_main_v24 (F := Ideal) x1 (ridx_main_v25 i k)
      = x0 (ix3 (0 : Fin 1) (⟨(i 1).val, (i 1).isLt⟩ : Fin 128) k)
        * deq (rowAt (n := 11008) x1 (⟨(i 2).val, (i 2).isLt⟩ : Fin 11008)) (blockOf k) (laneOf k) := fun k => by
    have e1 : lidx_main_v25 i k = ix3 (0 : Fin 1) (⟨(i 1).val, (i 1).isLt⟩ : Fin 128) k := funext fun a => by
      match a with
      | ⟨0, _⟩ => exact Fin.ext (by have h : (i 0).val < 1 := (i 0).isLt; show (i 0).val = 0; omega)
      | ⟨1, _⟩ => rfl
      | ⟨2, _⟩ => rfl
    have e2 : ridx_main_v25 i k = ix2 (⟨(i 2).val, (i 2).isLt⟩ : Fin 11008) k := funext fun a => by
      match a with
      | ⟨0, _⟩ => rfl
      | ⟨1, _⟩ => rfl
    rw [e1, e2, v24_apply]
  rw [Finset.sum_congr rfl fun k _ => hs k]
  exact congrArg (_ + x2 ·) (funext fun a => by match a with | ⟨0, _⟩ => rfl)

end Cert.ReferenceIdeal.RowValue

end
-- ==== Proof.lean ====
/-
  A linear layer over weights that are first put through a block-wise double-scale quantization and back
  (`x · deq(W)ᵀ + bias`, x : [1, 128, 4096], W : [11008, 4096]).

  Both programs compute, for each weight row, the same function of that row alone (Proof/Spec.lean, `deq`): per
  block of 64 lanes the largest magnitude over 7, at least 1e-8; over the row the largest of those over 15, at least
  1e-8; each block's step the second scale times the clipped rounded ratio of the two; each entry the step times the
  clipped rounded ratio of the entry to its step. The kernel does this on 43 blocks of 256 rows, one per grid point,
  and multiplies the activations against each dequantized block (Proof/KernelRow.lean, Proof/Blocks.lean); the
  reference does it on the whole matrix (Proof/RefRow.lean). At the extended reals the two narrowings to a shorter
  float format in the kernel are the identity, the two maxima over an axis are the same folds of `max`, the product
  into a zero accumulator is the host's contraction, and the only difference left is the order of the operands of
  `max` in the two lower clips, which commutes. No law used needs finite inputs.
-/
import proofs.«111635_j60773787239146_1_alg».proof.Defs
import proofs.«111635_j60773787239146_1_alg».proof.Proof.Gen.Kernel
import proofs.«111635_j60773787239146_1_alg».proof.Proof.Gen.Kernel.Skeleton
import proofs.«111635_j60773787239146_1_alg».proof.Proof.Gen.Kernel.Launch
import proofs.«111635_j60773787239146_1_alg».proof.Proof.Gen.Kernel.Points
import proofs.«111635_j60773787239146_1_alg».proof.Proof.Gen.Kernel.Frame
import proofs.«111635_j60773787239146_1_alg».proof.Proof.Gen.KernelIdeal
import proofs.«111635_j60773787239146_1_alg».proof.Proof.Gen.KernelIdeal.Skeleton
import proofs.«111635_j60773787239146_1_alg».proof.Proof.Gen.KernelIdeal.Launch
import proofs.«111635_j60773787239146_1_alg».proof.Proof.Gen.KernelIdeal.Points
import proofs.«111635_j60773787239146_1_alg».proof.Proof.Gen.KernelIdeal.Frame
import proofs.«111635_j60773787239146_1_alg».proof.Proof.Gen.ReferenceIdeal
import proofs.«111635_j60773787239146_1_alg».proof.Proof.Gen.Pre_finite_inputs
import proofs.«111635_j60773787239146_1_alg».proof.Proof.Gen.KernelIdeal.Value
import proofs.«111635_j60773787239146_1_alg».proof.Proof.Gen.ReferenceIdeal.Run
import proofs.«111635_j60773787239146_1_alg».proof.Proof.Gen.ReferenceIdeal.Read
import proofs.«111635_j60773787239146_1_alg».proof.Proof.Blocks
import proofs.«111635_j60773787239146_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the layer (`Cert.DoubleScale.linear`) of their own arguments, and the
    arguments agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RowValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
